-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x256 : Shape := ⟨3, ![64, 16, 256]⟩
abbrev S64x16x65536 : Shape := ⟨3, ![64, 16, 65536]⟩
abbrev S_ : Shape := ⟨0, ![]⟩

class Facts : Prop where
  bcast_S_S64x16x256 : S_.BroadcastsInDim S64x16x256 (![] : Fin 0 → Fin S64x16x256.rank)
  reducesTo_S64x16x256_S_d0_1_2 : S64x16x256.ReducesTo [0, 1, 2] S_
  h_S_ : 0 < S_.numel
  bcast_S_S64x16x65536 : S_.BroadcastsInDim S64x16x65536 (![] : Fin 0 → Fin S64x16x65536.rank)
  reducesTo_S64x16x65536_S_d0_1_2 : S64x16x65536.ReducesTo [0, 1, 2] S_

variable [Facts]

def fn {F : FTy → Type} [FloatOps F] (main_arg0 : FVec F S64x16x256 .f32) (main_arg1 : FVec F S64x16x65536 .f32) : IVec S_ 1 :=
  let main_v0 : FVec F S64x16x256 .f32 := Host.absf main_arg0
  let main_cst : FVec F S_ .f32 := constant S_ .f32 0x7F800000#32
  let main_v1 : FVec F S64x16x256 .f32 := broadcastInDim S64x16x256 ![] bcast_S_S64x16x256 main_cst
  let main_v2 : IVec S64x16x256 1 := cmpf .olt main_v0 main_v1
  let main_c : IVec S_ 1 := constantI S_ 1 1#1
  let main_v3 : IVec S_ 1 := (fun x v => Host.reduce IntOp.andi x v reducesTo_S64x16x256_S_d0_1_2 h_S_) main_v2 main_c
  let main_v4 : FVec F S64x16x65536 .f32 := Host.absf main_arg1
  let main_cst_0 : FVec F S_ .f32 := constant S_ .f32 0x7F800000#32
  let main_v5 : FVec F S64x16x65536 .f32 := broadcastInDim S64x16x65536 ![] bcast_S_S64x16x65536 main_cst_0
  let main_v6 : IVec S64x16x65536 1 := cmpf .olt main_v4 main_v5
  let main_c_1 : IVec S_ 1 := constantI S_ 1 1#1
  let main_v7 : IVec S_ 1 := (fun x v => Host.reduce IntOp.andi x v reducesTo_S64x16x65536_S_d0_1_2 h_S_) main_v6 main_c_1
  let main_v8 : IVec S_ 1 := andi main_v3 main_v7
  main_v8
-- ==== Kernel.lean ====
abbrev S64x16x256 : Shape := ⟨3, ![64, 16, 256]⟩
abbrev S64x16x65536 : Shape := ⟨3, ![64, 16, 65536]⟩
abbrev S2x16x256 : Shape := ⟨3, ![2, 16, 256]⟩
abbrev S2x16x65536 : Shape := ⟨3, ![2, 16, 65536]⟩
abbrev S2x16 : Shape := ⟨2, ![2, 16]⟩
abbrev S2x16x16 : Shape := ⟨3, ![2, 16, 16]⟩
abbrev S2x16x1 : Shape := ⟨3, ![2, 16, 1]⟩
abbrev S2x1x16 : Shape := ⟨3, ![2, 1, 16]⟩

abbrev nBuf : Space → Nat
  | .hbm => 3
  | .vmem => 6
  | .smem => 0
  | _ => 0

abbrev bufTy : (tb : Table) → Fin (tcTables nBuf tb) → BufTy
  | .hbm, ⟨0, _⟩ => ⟨S64x16x256, .f32⟩
  | .hbm, ⟨1, _⟩ => ⟨S64x16x65536, .f32⟩
  | .hbm, ⟨2, _⟩ => ⟨S64x16x65536, .f32⟩
  | .local _ .vmem, ⟨0, _⟩ => ⟨S2x16x256, .f32⟩
  | .local _ .vmem, ⟨1, _⟩ => ⟨S2x16x256, .f32⟩
  | .local _ .vmem, ⟨2, _⟩ => ⟨S2x16x65536, .f32⟩
  | .local _ .vmem, ⟨3, _⟩ => ⟨S2x16x65536, .f32⟩
  | .local _ .vmem, ⟨4, _⟩ => ⟨S2x16x65536, .f32⟩
  | .local _ .vmem, ⟨5, _⟩ => ⟨S2x16x65536, .f32⟩
  | _, _ => ⟨S64x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x16x256_S2x16x256_0_0_0 : ∀ a, (![0, 0, 0] : Fin 3 → Nat) a + S2x16x256.size a ≤ S2x16x256.size a
  h_S2x16x256 : 0 < S2x16x256.numel
  reduces_S2x16x256_S2x16 : S2x16x256.Reduces [2] S2x16
  shapeCasts_S2x16_S2x16x1 : S2x16.ShapeCasts S2x16x1
  shapeCasts_S2x16_S2x1x16 : S2x16.ShapeCasts S2x1x16
  broadcasts_S2x16x1_S2x16x16 : S2x16x1.Broadcasts S2x16x16
  broadcasts_S2x1x16_S2x16x16 : S2x1x16.Broadcasts S2x16x16
  reduces_S2x16x16_S2x16 : S2x16x16.Reduces [2] S2x16
  inb_S2x16x65536_S2x16x65536_0_0_0 : ∀ a, (![0, 0, 0] : Fin 3 → Nat) a + S2x16x65536.size a ≤ S2x16x65536.size a
  h_S2x16x65536 : 0 < S2x16x65536.numel
  dot_S2x16x256_S2x16x256_S2x16x16_2_2_1_1_0_0_wf : DotDims.WF S2x16x256 S2x16x256 S2x16x16 [2] [2] [1] [1] [0] [0]
  dot_S2x16x16_S2x16x65536_S2x16x65536_2_1_1_2_0_0_wf : DotDims.WF S2x16x16 S2x16x65536 S2x16x65536 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x256.size a ≤ S64x16x256.size a
  hwx0_0 : ∀ i : grid0.Coords, EltTy.bits .f32 = 32 ∨ (Rect.block (s := S64x16x256) S2x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16x65536.size a ≤ S64x16x65536.size a
  hwx0_1 : ∀ i : grid0.Coords, EltTy.bits .f32 = 32 ∨ (Rect.block (s := S64x16x65536) S2x16x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16x65536.size a ≤ S64x16x65536.size a
  hwx0_2 : ∀ i : grid0.Coords, EltTy.bits .f32 = 32 ∨ (Rect.block (s := S64x16x65536) S2x16x65536.size (cc0_transform_2 i) (hinb0_2 i)).WholeWords (EltTy.packing .f32)

variable [Facts₀]

def dot_S2x16x256_S2x16x256_S2x16x16_2_2_1_1_0_0 : DotDims S2x16x256 S2x16x256 S2x16x16 where
  lhsContracting := [2]
  rhsContracting := [2]
  lhsNonContracting := [1]
  rhsNonContracting := [1]
  lhsBatch := [0]
  rhsBatch := [0]
  wf := dot_S2x16x256_S2x16x256_S2x16x16_2_2_1_1_0_0_wf
def dot_S2x16x16_S2x16x65536_S2x16x65536_2_1_1_2_0_0 : DotDims S2x16x16 S2x16x65536 S2x16x65536 where
  lhsContracting := [2]
  rhsContracting := [1]
  lhsNonContracting := [1]
  rhsNonContracting := [2]
  lhsBatch := [0]
  rhsBatch := [0]
  wf := dot_S2x16x16_S2x16x65536_S2x16x65536_2_1_1_2_0_0_wf

abbrev win0_0 : Pipeline.Window sig grid0 :=
  Pipeline.Window.ofSpec (Memref.whole main_arg0) S2x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x16x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x16x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x16x256 : Shape := ⟨3, ![64, 16, 256]⟩
abbrev S64x16x65536 : Shape := ⟨3, ![64, 16, 65536]⟩
abbrev S_ : Shape := ⟨0, ![]⟩
abbrev S64x16 : Shape := ⟨2, ![64, 16]⟩
abbrev S64x16x16 : Shape := ⟨3, ![64, 16, 16]⟩
abbrev S64x16x1 : Shape := ⟨3, ![64, 16, 1]⟩
abbrev S64x1x16 : Shape := ⟨3, ![64, 1, 16]⟩

abbrev nBuf : Space → Nat
  | .hbm => 31
  | .vmem => 0
  | .smem => 0
  | _ => 0

abbrev bufTy : (tb : Table) → Fin (tcTables nBuf tb) → BufTy
  | .hbm, ⟨0, _⟩ => ⟨S64x16x256, .f32⟩
  | .hbm, ⟨1, _⟩ => ⟨S64x16x65536, .f32⟩
  | .hbm, ⟨2, _⟩ => ⟨S64x16x256, .f32⟩
  | .hbm, ⟨3, _⟩ => ⟨S_, .f32⟩
  | .hbm, ⟨4, _⟩ => ⟨S64x16, .f32⟩
  | .hbm, ⟨5, _⟩ => ⟨S64x16, .f32⟩
  | .hbm, ⟨6, _⟩ => ⟨S64x16x16, .f32⟩
  | .hbm, ⟨7, _⟩ => ⟨S64x16x1, .f32⟩
  | .hbm, ⟨8, _⟩ => ⟨S64x1x16, .f32⟩
  | .hbm, ⟨9, _⟩ => ⟨S64x16x16, .f32⟩
  | .hbm, ⟨10, _⟩ => ⟨S64x16x16, .f32⟩
  | .hbm, ⟨11, _⟩ => ⟨S64x16x16, .f32⟩
  | .hbm, ⟨12, _⟩ => ⟨S_, .f32⟩
  | .hbm, ⟨13, _⟩ => ⟨S64x16x16, .f32⟩
  | .hbm, ⟨14, _⟩ => ⟨S64x16x16, .f32⟩
  | .hbm, ⟨15, _⟩ => ⟨S64x16x16, .f32⟩
  | .hbm, ⟨16, _⟩ => ⟨S_, .f32⟩
  | .hbm, ⟨17, _⟩ => ⟨S64x16, .f32⟩
  | .hbm, ⟨18, _⟩ => ⟨S_, .f32⟩
  | .hbm, ⟨19, _⟩ => ⟨S64x16, .f32⟩
  | .hbm, ⟨20, _⟩ => ⟨S64x16, .f32⟩
  | .hbm, ⟨21, _⟩ => ⟨S64x16x1, .f32⟩
  | .hbm, ⟨22, _⟩ => ⟨S64x16x16, .f32⟩
  | .hbm, ⟨23, _⟩ => ⟨S64x16x16, .f32⟩
  | .hbm, ⟨24, _⟩ => ⟨S64x16x16, .f32⟩
  | .hbm, ⟨25, _⟩ => ⟨S_, .f32⟩
  | .hbm, ⟨26, _⟩ => ⟨S64x16, .f32⟩
  | .hbm, ⟨27, _⟩ => ⟨S64x16x1, .f32⟩
  | .hbm, ⟨28, _⟩ => ⟨S64x16x16, .f32⟩
  | .hbm, ⟨29, _⟩ => ⟨S64x16x16, .f32⟩
  | .hbm, ⟨30, _⟩ => ⟨S64x16x65536, .f32⟩
  | _, _ => ⟨S64x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S64x16x256_S64x16_d2 : S64x16x256.ReducesTo [2] S64x16
  h_S_ : 0 < S_.numel
  bcast_S64x16_S64x16x1_0_1 : S64x16.BroadcastsInDim S64x16x1 (![0, 1] : Fin 2 → Fin S64x16x1.rank)
  bcast_S64x16_S64x1x16_0_2 : S64x16.BroadcastsInDim S64x1x16 (![0, 2] : Fin 2 → Fin S64x1x16.rank)
  bcast_S64x16x1_S64x16x16_0_1_2 : S64x16x1.BroadcastsInDim S64x16x16 (![0, 1, 2] : Fin 3 → Fin S64x16x16.rank)
  bcast_S64x1x16_S64x16x16_0_1_2 : S64x1x16.BroadcastsInDim S64x16x16 (![0, 1, 2] : Fin 3 → Fin S64x16x16.rank)
  bcast_S_S64x16x16 : S_.BroadcastsInDim S64x16x16 (![] : Fin 0 → Fin S64x16x16.rank)
  reducesTo_S64x16x16_S64x16_d2 : S64x16x16.ReducesTo [2] S64x16
  bcast_S_S64x16 : S_.BroadcastsInDim S64x16 (![] : Fin 0 → Fin S64x16.rank)
  dot_S64x16x256_S64x16x256_S64x16x16_2_2_1_1_0_0_wf : DotDims.WF S64x16x256 S64x16x256 S64x16x16 [2] [2] [1] [1] [0] [0]
  dot_S64x16x16_S64x16x65536_S64x16x65536_2_1_1_2_0_0_wf : DotDims.WF S64x16x16 S64x16x65536 S64x16x65536 [2] [1] [1] [2] [0] [0]

variable [Facts₀]

def dot_S64x16x256_S64x16x256_S64x16x16_2_2_1_1_0_0 : DotDims S64x16x256 S64x16x256 S64x16x16 where
  lhsContracting := [2]
  rhsContracting := [2]
  lhsNonContracting := [1]
  rhsNonContracting := [1]
  lhsBatch := [0]
  rhsBatch := [0]
  wf := dot_S64x16x256_S64x16x256_S64x16x16_2_2_1_1_0_0_wf
def dot_S64x16x16_S64x16x65536_S64x16x65536_2_1_1_2_0_0 : DotDims S64x16x16 S64x16x65536 S64x16x65536 where
  lhsContracting := [2]
  rhsContracting := [1]
  lhsNonContracting := [1]
  rhsNonContracting := [2]
  lhsBatch := [0]
  rhsBatch := [0]
  wf := dot_S64x16x16_S64x16x65536_S64x16x65536_2_1_1_2_0_0_wf

class Facts : Prop extends Facts₀ where

variable [Facts]
-- ==== Proof.Spec.lean ====
/-
  The mathematics of one clique, on the extended reals.

  A clique has 16 members; member `i` carries a representation row `X i : Fin 256 → EReal` and, at one parameter
  position, a value `P i`. The attention weight of member `j` for member `i` is the softmax over `j` of the cosine
  score  ⟨X i, X j⟩ / (‖X i‖ · ‖X j‖ + ε),  the softmax taken the numerically careful way: the row's maximum (started
  from −∞, and once more against −∞) is subtracted before the exponential, and the exponentials are divided by their
  sum. The aggregated parameter of member `i` is  Σ_j weight i j · P j.

  Both programs compute exactly these operations in exactly this order, one on blocks of two cliques and one on all 64
  at once; cliques never mix (the clique axis is a batch axis of both contractions and is kept by every reduction), so
  the result at (clique, member, position) is `mix` of that clique's rows and that position's column, whatever the
  tiling. No law of arithmetic beyond the definitions is used, so nothing here needs the inputs to be finite.
-/
import Idealize.ShloMosaic.PureOps.Ideal
import Idealize.ShloMosaic.Lib.ValueIdx

noncomputable section

open scoped BigOperators

namespace Cert.CliqueAttention

open Idealize.ShloMosaic Idealize.ShloMosaic.ValueIdx

/-- The score's stabiliser ε, the f32 nearest 1e-8, as the extended real its word encodes. -/
abbrev eps : EReal := Ideal.ofBits .f32 0x322BCC77#32
/-- The f32 word of −∞, the value a row maximum starts from. -/
abbrev negInf : EReal := Ideal.ofBits .f32 0xFF800000#32

/-- ‖X i‖: the square root of the sum of the row's squares. -/
def norm (X : Fin 16 → Fin 256 → EReal) (i : Fin 16) : EReal :=
  Ideal.sqrt (∑ d : Fin 256, X i d * X i d)

/-- The cosine score of members `i` and `j`: their inner product over the product of their norms plus ε. -/
def score (X : Fin 16 → Fin 256 → EReal) (i j : Fin 16) : EReal :=
  Ideal.div (∑ d : Fin 256, X i d * X j d) (norm X i * norm X j + eps)

/-- The largest score in row `i`, folded from −∞ and compared with −∞ once more. -/
def rowMax (X : Fin 16 → Fin 256 → EReal) (i : Fin 16) : EReal :=
  max negInf ((Finset.univ : Finset (Fin 16)).fold max negInf (fun j => score X i j))

/-- exp (score − row maximum). -/
def expo (X : Fin 16 → Fin 256 → EReal) (i j : Fin 16) : EReal :=
  Ideal.exp (score X i j - rowMax X i)

/-- The softmax weight: the exponential over the row's sum of exponentials. -/
def weight (X : Fin 16 → Fin 256 → EReal) (i j : Fin 16) : EReal :=
  Ideal.div (expo X i j) (∑ j' : Fin 16, expo X i j')

/-- Member `i`'s aggregated parameter at one position: the weighted sum of the clique's values there. -/
def mix (X : Fin 16 → Fin 256 → EReal) (P : Fin 16 → EReal) (i : Fin 16) : EReal :=
  ∑ j : Fin 16, weight X i j * P j

/-- The result at (clique `c`, member `i`, position `p`) of arrays holding `n` cliques: `mix` of clique `c`'s rows and of
    position `p`'s column in clique `c`. -/
def mixAt {n : Nat} (x : (⟨3, ![n, 16, 256]⟩ : Shape).Idx → EReal) (P : (⟨3, ![n, 16, 65536]⟩ : Shape).Idx → EReal)
    (c : Fin n) (i : Fin 16) (p : Fin 65536) : EReal :=
  mix (fun i' d => x (ix3 c i' d)) (fun j => P (ix3 c j p)) i

/-- The whole result array over `n` cliques, index by index. -/
def result {n : Nat} (x : (⟨3, ![n, 16, 256]⟩ : Shape).Idx → EReal) (P : (⟨3, ![n, 16, 65536]⟩ : Shape).Idx → EReal) :
    (⟨3, ![n, 16, 65536]⟩ : Shape).Idx → EReal :=
  fun y => mixAt x P ⟨(y 0).val, (y 0).isLt⟩ ⟨(y 1).val, (y 1).isLt⟩ ⟨(y 2).val, (y 2).isLt⟩

theorem result_ix3 {n : Nat} (x : (⟨3, ![n, 16, 256]⟩ : Shape).Idx → EReal) (P : (⟨3, ![n, 16, 65536]⟩ : Shape).Idx → EReal)
    (c : Fin n) (i : Fin 16) (p : Fin 65536) : result x P (ix3 c i p) = mixAt x P c i p := rfl

end Cert.CliqueAttention

end
-- ==== Proof.BlockOps.lean ====
/-
  The block operations of the kernel body that are not pointwise, each read at one index of a two-clique block:

  * a [2,16] vector cast to a column [2,16,1] (or a row [2,1,16]) and broadcast to [2,16,16] reads, at (b, i, j), the
    vector at (b, i) (or at (b, j));
  * a sum, or a maximum from −∞, over the last axis of a [2,16,K] vector reads, at (b, i), the sum (the fold of max)
    over k of the vector at (b, i, k);
  * the Gram product  x·xᵀ  per clique (contracting the 256 representation coordinates, the clique axis a batch axis)
    reads at (b, i, j) the sum over d of x(b,i,d)·x(b,j,d);
  * the product of a [2,16,16] weight block with the [2,16,65536] parameter block (contracting the member axis, the clique
    axis again a batch axis) reads at (b, i, p) the sum over j of w(b,i,j)·y(b,j,p).

  The clique coordinate b passes through every one of them untouched.
-/
import proofs.«179218_j49168785604634_1_alg».proof.Proof.Gen.KernelIdeal
import proofs.«179218_j49168785604634_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.BlockOps

open Cert.KernelIdeal Cert.KernelIdeal.Gen Idealize.ShloMosaic Idealize.ShloMosaic.ValueIdx Cert.CliqueAttention

/-! ## Layout: a per-member vector spread along a row or down a column -/

/-- A [2,16] vector made a column and broadcast across the last axis: at (b, i, j) it is the vector at (b, i). -/
theorem column_spread {α : Type} (v : S2x16.Idx → α) (h1 : S2x16.ShapeCasts S2x16x1) (h2 : S2x16x1.Broadcasts S2x16x16)
    (b : Fin 2) (i j : Fin 16) :
    broadcastTo S2x16x16 (shapeCast S2x16x1 v h1) h2 (ix3 b i j) = v (ix2 b i) :=
  (broadcastTo_apply _ h2 (ix3 b i j) (ix3 b i (0 : Fin 1)) (fun a => by
      match a with
      | ⟨0, _⟩ => show b.val = if (2 : Nat) = 1 then 0 else b.val; rw [if_neg (by decide)]
      | ⟨1, _⟩ => show i.val = if (16 : Nat) = 1 then 0 else i.val; rw [if_neg (by decide)]
      | ⟨2, _⟩ => show (0 : Nat) = if (1 : Nat) = 1 then 0 else j.val; rw [if_pos rfl])).trans
    (shapeCast_apply v h1 (ix3 b i (0 : Fin 1)) (ix2 b i) (by
      rw [Shape.rowMajor_val_two, Shape.rowMajor_val_three]
      show b.val * 16 + i.val = (b.val * 16 + i.val) * 1 + 0
      omega))

/-- A [2,16] vector made a row and broadcast down the middle axis: at (b, i, j) it is the vector at (b, j). -/
theorem row_spread {α : Type} (v : S2x16.Idx → α) (h1 : S2x16.ShapeCasts S2x1x16) (h2 : S2x1x16.Broadcasts S2x16x16)
    (b : Fin 2) (i j : Fin 16) :
    broadcastTo S2x16x16 (shapeCast S2x1x16 v h1) h2 (ix3 b i j) = v (ix2 b j) :=
  (broadcastTo_apply _ h2 (ix3 b i j) (ix3 b (0 : Fin 1) j) (fun a => by
      match a with
      | ⟨0, _⟩ => show b.val = if (2 : Nat) = 1 then 0 else b.val; rw [if_neg (by decide)]
      | ⟨1, _⟩ => show (0 : Nat) = if (1 : Nat) = 1 then 0 else i.val; rw [if_pos rfl]
      | ⟨2, _⟩ => show j.val = if (16 : Nat) = 1 then 0 else j.val; rw [if_neg (by decide)])).trans
    (shapeCast_apply v h1 (ix3 b (0 : Fin 1) j) (ix2 b j) (by
      rw [Shape.rowMajor_val_two, Shape.rowMajor_val_three]
      show b.val * 16 + j.val = (b.val * 1 + 0) * 16 + j.val
      omega))

/-! ## Reductions over the last axis -/

/-- The sum over the 256 representation coordinates, at (b, i). -/
theorem sum_reps (w : FVec Ideal S2x16x256 .f32) (h : S2x16x256.Reduces [2] S2x16) (hφ : FKind.Formats .f32)
    (hacc : (0x00000000#32 : BitVec 32) = FKind.add.neutral .f32 hφ) (b : Fin 2) (i : Fin 16) :
    multiReduction .add [2] S2x16 w 0x00000000#32 h hφ hacc (ix2 b i) = ∑ d : Fin 256, w (ix3 b i d) :=
  (Ideal.multiReduction_add_single w _ h hφ hacc (ix2 b i)).trans
    (Finset.sum_congr rfl fun k _ => congrArg w (funext fun a => Fin.ext (by
      match a with | ⟨0, _⟩ => rfl | ⟨1, _⟩ => rfl | ⟨2, _⟩ => rfl)))

/-- The sum over the 16 members of a row, at (b, i). -/
theorem sum_members (w : FVec Ideal S2x16x16 .f32) (h : S2x16x16.Reduces [2] S2x16) (hφ : FKind.Formats .f32)
    (hacc : (0x00000000#32 : BitVec 32) = FKind.add.neutral .f32 hφ) (b : Fin 2) (i : Fin 16) :
    multiReduction .add [2] S2x16 w 0x00000000#32 h hφ hacc (ix2 b i) = ∑ j : Fin 16, w (ix3 b i j) :=
  (Ideal.multiReduction_add_single w _ h hφ hacc (ix2 b i)).trans
    (Finset.sum_congr rfl fun k _ => congrArg w (funext fun a => Fin.ext (by
      match a with | ⟨0, _⟩ => rfl | ⟨1, _⟩ => rfl | ⟨2, _⟩ => rfl)))

/-- The maximum over the 16 members of a row, folded from −∞, at (b, i). -/
theorem max_members (w : FVec Ideal S2x16x16 .f32) (h : S2x16x16.Reduces [2] S2x16) (hφ : FKind.Formats .f32)
    (hacc : (0xFF800000#32 : BitVec 32) = FKind.maximumf.neutral .f32 hφ) (b : Fin 2) (i : Fin 16) :
    multiReduction .maximumf [2] S2x16 w 0xFF800000#32 h hφ hacc (ix2 b i)
      = (Finset.univ : Finset (Fin 16)).fold max negInf (fun j => w (ix3 b i j)) :=
  (Ideal.multiReduction_maximumf_single w _ h hφ hacc (ix2 b i)).trans
    (congrArg ((Finset.univ : Finset (Fin 16)).fold max negInf) (funext fun k => congrArg w (funext fun a => Fin.ext (by
      match a with | ⟨0, _⟩ => rfl | ⟨1, _⟩ => rfl | ⟨2, _⟩ => rfl))))

/-! ## The Gram product of a clique's rows -/

theorem gram_lhs_0 (i : S2x16x16.Idx) (q : dot_S2x16x256_S2x16x256_S2x16x16_2_2_1_1_0_0.contr.Idx) :
    (dot_S2x16x256_S2x16x256_S2x16x16_2_2_1_1_0_0.lhsIdx i q 0).val = (i 0).val := by
  unfold DotDims.lhsIdx
  rw [dif_pos (show (0 : Fin S2x16x256.rank) ∈ dot_S2x16x256_S2x16x256_S2x16x16_2_2_1_1_0_0.lhsBatch by decide)]
  rfl
theorem gram_lhs_1 (i : S2x16x16.Idx) (q : dot_S2x16x256_S2x16x256_S2x16x16_2_2_1_1_0_0.contr.Idx) :
    (dot_S2x16x256_S2x16x256_S2x16x16_2_2_1_1_0_0.lhsIdx i q 1).val = (i 1).val := by
  unfold DotDims.lhsIdx
  rw [dif_neg (show ¬(1 : Fin S2x16x256.rank) ∈ dot_S2x16x256_S2x16x256_S2x16x16_2_2_1_1_0_0.lhsBatch by decide), dif_pos (show (1 : Fin S2x16x256.rank) ∈ dot_S2x16x256_S2x16x256_S2x16x16_2_2_1_1_0_0.lhsNonContracting by decide)]
  rfl
theorem gram_lhs_2 (i : S2x16x16.Idx) (q : dot_S2x16x256_S2x16x256_S2x16x16_2_2_1_1_0_0.contr.Idx) :
    (dot_S2x16x256_S2x16x256_S2x16x16_2_2_1_1_0_0.lhsIdx i q 2).val = (q ⟨0, by decide⟩).val :=
  dot_S2x16x256_S2x16x256_S2x16x16_2_2_1_1_0_0.lhsIdx_val_of_single rfl i q
theorem gram_rhs_0 (i : S2x16x16.Idx) (q : dot_S2x16x256_S2x16x256_S2x16x16_2_2_1_1_0_0.contr.Idx) :
    (dot_S2x16x256_S2x16x256_S2x16x16_2_2_1_1_0_0.rhsIdx i q 0).val = (i 0).val := by
  unfold DotDims.rhsIdx
  rw [dif_pos (show (0 : Fin S2x16x256.rank) ∈ dot_S2x16x256_S2x16x256_S2x16x16_2_2_1_1_0_0.rhsBatch by decide)]
  rfl
theorem gram_rhs_1 (i : S2x16x16.Idx) (q : dot_S2x16x256_S2x16x256_S2x16x16_2_2_1_1_0_0.contr.Idx) :
    (dot_S2x16x256_S2x16x256_S2x16x16_2_2_1_1_0_0.rhsIdx i q 1).val = (i 2).val := by
  unfold DotDims.rhsIdx
  rw [dif_neg (show ¬(1 : Fin S2x16x256.rank) ∈ dot_S2x16x256_S2x16x256_S2x16x16_2_2_1_1_0_0.rhsBatch by decide), dif_pos (show (1 : Fin S2x16x256.rank) ∈ dot_S2x16x256_S2x16x256_S2x16x16_2_2_1_1_0_0.rhsNonContracting by decide)]
  rfl
theorem gram_rhs_2 (i : S2x16x16.Idx) (q : dot_S2x16x256_S2x16x256_S2x16x16_2_2_1_1_0_0.contr.Idx) :
    (dot_S2x16x256_S2x16x256_S2x16x16_2_2_1_1_0_0.rhsIdx i q 2).val = (q ⟨0, by decide⟩).val :=
  dot_S2x16x256_S2x16x256_S2x16x16_2_2_1_1_0_0.rhsIdx_val_of_single rfl i q

/-- The inner products of a clique's rows: at (b, i, j), the sum over d of x(b,i,d) · x(b,j,d). -/
theorem gram (x : FVec Ideal S2x16x256 .f32) (b : Fin 2) (i j : Fin 16) :
    matmul dot_S2x16x256_S2x16x256_S2x16x16_2_2_1_1_0_0 none x x (constant S2x16x16 .f32 0x00000000#32) (ix3 b i j)
      = ∑ d : Fin 256, x (ix3 b i d) * x (ix3 b j d) := by
  simp only [matmul]
  rw [Ideal.matmul_constant_zero_apply, ← Equiv.sum_comp (contrEquiv1 dot_S2x16x256_S2x16x256_S2x16x16_2_2_1_1_0_0 256 rfl rfl).symm]
  refine Finset.sum_congr rfl fun k _ => ?_
  have hk := contrEquiv1_symm_val dot_S2x16x256_S2x16x256_S2x16x16_2_2_1_1_0_0 256 rfl rfl k
  have el : dot_S2x16x256_S2x16x256_S2x16x16_2_2_1_1_0_0.lhsIdx (ix3 b i j) ((contrEquiv1 dot_S2x16x256_S2x16x256_S2x16x16_2_2_1_1_0_0 256 rfl rfl).symm k) = ix3 b i k := funext fun a => Fin.ext (by
    match a with
    | ⟨0, _⟩ => exact gram_lhs_0 _ _
    | ⟨1, _⟩ => exact gram_lhs_1 _ _
    | ⟨2, _⟩ => exact (gram_lhs_2 _ _).trans hk)
  have er : dot_S2x16x256_S2x16x256_S2x16x16_2_2_1_1_0_0.rhsIdx (ix3 b i j) ((contrEquiv1 dot_S2x16x256_S2x16x256_S2x16x16_2_2_1_1_0_0 256 rfl rfl).symm k) = ix3 b j k := funext fun a => Fin.ext (by
    match a with
    | ⟨0, _⟩ => exact gram_rhs_0 _ _
    | ⟨1, _⟩ => exact gram_rhs_1 _ _
    | ⟨2, _⟩ => exact (gram_rhs_2 _ _).trans hk)
  rw [el, er]

/-! ## The weights applied to the parameter block -/

theorem apply_lhs_0 (i : S2x16x65536.Idx) (q : dot_S2x16x16_S2x16x65536_S2x16x65536_2_1_1_2_0_0.contr.Idx) :
    (dot_S2x16x16_S2x16x65536_S2x16x65536_2_1_1_2_0_0.lhsIdx i q 0).val = (i 0).val := by
  unfold DotDims.lhsIdx
  rw [dif_pos (show (0 : Fin S2x16x16.rank) ∈ dot_S2x16x16_S2x16x65536_S2x16x65536_2_1_1_2_0_0.lhsBatch by decide)]
  rfl
theorem apply_lhs_1 (i : S2x16x65536.Idx) (q : dot_S2x16x16_S2x16x65536_S2x16x65536_2_1_1_2_0_0.contr.Idx) :
    (dot_S2x16x16_S2x16x65536_S2x16x65536_2_1_1_2_0_0.lhsIdx i q 1).val = (i 1).val := by
  unfold DotDims.lhsIdx
  rw [dif_neg (show ¬(1 : Fin S2x16x16.rank) ∈ dot_S2x16x16_S2x16x65536_S2x16x65536_2_1_1_2_0_0.lhsBatch by decide), dif_pos (show (1 : Fin S2x16x16.rank) ∈ dot_S2x16x16_S2x16x65536_S2x16x65536_2_1_1_2_0_0.lhsNonContracting by decide)]
  rfl
theorem apply_lhs_2 (i : S2x16x65536.Idx) (q : dot_S2x16x16_S2x16x65536_S2x16x65536_2_1_1_2_0_0.contr.Idx) :
    (dot_S2x16x16_S2x16x65536_S2x16x65536_2_1_1_2_0_0.lhsIdx i q 2).val = (q ⟨0, by decide⟩).val :=
  dot_S2x16x16_S2x16x65536_S2x16x65536_2_1_1_2_0_0.lhsIdx_val_of_single rfl i q
theorem apply_rhs_0 (i : S2x16x65536.Idx) (q : dot_S2x16x16_S2x16x65536_S2x16x65536_2_1_1_2_0_0.contr.Idx) :
    (dot_S2x16x16_S2x16x65536_S2x16x65536_2_1_1_2_0_0.rhsIdx i q 0).val = (i 0).val := by
  unfold DotDims.rhsIdx
  rw [dif_pos (show (0 : Fin S2x16x65536.rank) ∈ dot_S2x16x16_S2x16x65536_S2x16x65536_2_1_1_2_0_0.rhsBatch by decide)]
  rfl
theorem apply_rhs_1 (i : S2x16x65536.Idx) (q : dot_S2x16x16_S2x16x65536_S2x16x65536_2_1_1_2_0_0.contr.Idx) :
    (dot_S2x16x16_S2x16x65536_S2x16x65536_2_1_1_2_0_0.rhsIdx i q 1).val = (q ⟨0, by decide⟩).val :=
  dot_S2x16x16_S2x16x65536_S2x16x65536_2_1_1_2_0_0.rhsIdx_val_of_single rfl i q
theorem apply_rhs_2 (i : S2x16x65536.Idx) (q : dot_S2x16x16_S2x16x65536_S2x16x65536_2_1_1_2_0_0.contr.Idx) :
    (dot_S2x16x16_S2x16x65536_S2x16x65536_2_1_1_2_0_0.rhsIdx i q 2).val = (i 2).val := by
  unfold DotDims.rhsIdx
  rw [dif_neg (show ¬(2 : Fin S2x16x65536.rank) ∈ dot_S2x16x16_S2x16x65536_S2x16x65536_2_1_1_2_0_0.rhsBatch by decide), dif_pos (show (2 : Fin S2x16x65536.rank) ∈ dot_S2x16x16_S2x16x65536_S2x16x65536_2_1_1_2_0_0.rhsNonContracting by decide)]
  rfl

/-- The weights applied to the parameters: at (b, i, p), the sum over members j of w(b,i,j) · y(b,j,p). -/
theorem weighted (w : FVec Ideal S2x16x16 .f32) (y : FVec Ideal S2x16x65536 .f32) (b : Fin 2) (i : Fin 16) (p : Fin 65536) :
    matmul dot_S2x16x16_S2x16x65536_S2x16x65536_2_1_1_2_0_0 none w y (constant S2x16x65536 .f32 0x00000000#32) (ix3 b i p)
      = ∑ j : Fin 16, w (ix3 b i j) * y (ix3 b j p) := by
  simp only [matmul]
  rw [Ideal.matmul_constant_zero_apply, ← Equiv.sum_comp (contrEquiv1 dot_S2x16x16_S2x16x65536_S2x16x65536_2_1_1_2_0_0 16 rfl rfl).symm]
  refine Finset.sum_congr rfl fun k _ => ?_
  have hk := contrEquiv1_symm_val dot_S2x16x16_S2x16x65536_S2x16x65536_2_1_1_2_0_0 16 rfl rfl k
  have el : dot_S2x16x16_S2x16x65536_S2x16x65536_2_1_1_2_0_0.lhsIdx (ix3 b i p) ((contrEquiv1 dot_S2x16x16_S2x16x65536_S2x16x65536_2_1_1_2_0_0 16 rfl rfl).symm k) = ix3 b i k := funext fun a => Fin.ext (by
    match a with
    | ⟨0, _⟩ => exact apply_lhs_0 _ _
    | ⟨1, _⟩ => exact apply_lhs_1 _ _
    | ⟨2, _⟩ => exact (apply_lhs_2 _ _).trans hk)
  have er : dot_S2x16x16_S2x16x65536_S2x16x65536_2_1_1_2_0_0.rhsIdx (ix3 b i p) ((contrEquiv1 dot_S2x16x16_S2x16x65536_S2x16x65536_2_1_1_2_0_0 16 rfl rfl).symm k) = ix3 b k p := funext fun a => Fin.ext (by
    match a with
    | ⟨0, _⟩ => exact apply_rhs_0 _ _
    | ⟨1, _⟩ => exact (apply_rhs_1 _ _).trans hk
    | ⟨2, _⟩ => exact apply_rhs_2 _ _)
  rw [el, er]

end Cert.KernelIdeal.BlockOps

end
-- ==== Proof.KernelBlock.lean ====
/-
  The kernel body's one store, read at an index of a two-clique block.

  The body computes, from the loaded representation block x : [2,16,256] and parameter block y : [2,16,65536]:
  the row norms, the cosine scores, each row's maximum, the shifted exponentials, the softmax weights, and the weights
  applied to y. Each stage below is the body's own operations on the stage before, and is read at an index as the
  clique's mathematics (Spec) of clique b's rows: the clique coordinate b is carried through unchanged, so clique b of
  the block sees only clique b's rows and clique b's parameters.
-/
import proofs.«179218_j49168785604634_1_alg».proof.Proof.Gen.KernelIdeal.Skeleton
import proofs.«179218_j49168785604634_1_alg».proof.Proof.BlockOps

noncomputable section

open scoped BigOperators

namespace Cert.KernelIdeal.Block

open Cert.KernelIdeal Cert.KernelIdeal.Gen Idealize.ShloMosaic Idealize.ShloMosaic.ValueIdx Cert.CliqueAttention
open Cert.KernelIdeal.BlockOps

/-- Clique `b`'s rows of a representation block. -/
abbrev rowsOf (x : FVec Ideal S2x16x256 .f32) (b : Fin 2) : Fin 16 → Fin 256 → EReal := fun i d => x (ix3 b i d)

/-! ## The stages of the body -/

/-- The row norms: the square root of each row's sum of squares. -/
def norms (x : FVec Ideal S2x16x256 .f32) : FVec Ideal S2x16 .f32 :=
  sqrt (multiReduction .add [2] S2x16 (mulf x x) 0x00000000#32 reduces_S2x16x256_S2x16 (.inl rfl) rfl)

/-- The cosine scores: the Gram product over (the outer product of the norms plus ε). -/
def scores (x : FVec Ideal S2x16x256 .f32) : FVec Ideal S2x16x16 .f32 :=
  divf (matmul dot_S2x16x256_S2x16x256_S2x16x16_2_2_1_1_0_0 none x x (constant S2x16x16 .f32 0x00000000#32))
    (addf (mulf (broadcastTo S2x16x16 (shapeCast S2x16x1 (norms x) shapeCasts_S2x16_S2x16x1) broadcasts_S2x16x1_S2x16x16)
                (broadcastTo S2x16x16 (shapeCast S2x1x16 (norms x) shapeCasts_S2x16_S2x1x16) broadcasts_S2x1x16_S2x16x16))
          (broadcast S2x16x16 (Scalar.ofBits .f32 0x322BCC77#32)))

/-- Each row's largest score (from −∞, and against −∞ once more). -/
def rowMaxes (x : FVec Ideal S2x16x256 .f32) : FVec Ideal S2x16 .f32 :=
  maximumf (broadcast S2x16 (Scalar.ofBits .f32 0xFF800000#32))
    (multiReduction .maximumf [2] S2x16 (scores x) 0xFF800000#32 reduces_S2x16x16_S2x16 (.inl rfl) rfl)

/-- exp (score − row maximum). -/
def expos (x : FVec Ideal S2x16x256 .f32) : FVec Ideal S2x16x16 .f32 :=
  exp (subf (scores x) (broadcastTo S2x16x16 (shapeCast S2x16x1 (rowMaxes x) shapeCasts_S2x16_S2x16x1) broadcasts_S2x16x1_S2x16x16))

/-- The softmax weights: each exponential over its row's sum. -/
def weights (x : FVec Ideal S2x16x256 .f32) : FVec Ideal S2x16x16 .f32 :=
  divf (expos x)
    (broadcastTo S2x16x16
      (shapeCast S2x16x1 (multiReduction .add [2] S2x16 (expos x) 0x00000000#32 reduces_S2x16x16_S2x16 (.inl rfl) rfl) shapeCasts_S2x16_S2x16x1)
      broadcasts_S2x16x1_S2x16x16)

/-- The body's stored value is the weights applied to the parameter block: the printed payload, its lines grouped
    into the stages above. -/
theorem payload_eq (x : FVec Ideal S2x16x256 .f32) (y : FVec Ideal S2x16x65536 .f32) :
    k0_pay1 (F := Ideal) x y
      = matmul dot_S2x16x16_S2x16x65536_S2x16x65536_2_1_1_2_0_0 none (weights x) y (constant S2x16x65536 .f32 0x00000000#32) := rfl

/-! ## Each stage at an index -/

theorem norms_apply (x : FVec Ideal S2x16x256 .f32) (b : Fin 2) (i : Fin 16) :
    norms x (ix2 b i) = norm (rowsOf x b) i := by
  show Ideal.sqrt (multiReduction .add [2] S2x16 (mulf x x) 0x00000000#32 reduces_S2x16x256_S2x16 (.inl rfl) rfl (ix2 b i)) = _
  exact congrArg Ideal.sqrt (sum_reps (mulf x x) _ _ _ b i)

theorem scores_apply (x : FVec Ideal S2x16x256 .f32) (b : Fin 2) (i j : Fin 16) :
    scores x (ix3 b i j) = score (rowsOf x b) i j := by
  show Ideal.div (matmul dot_S2x16x256_S2x16x256_S2x16x16_2_2_1_1_0_0 none x x (constant S2x16x16 .f32 0x00000000#32) (ix3 b i j))
      (broadcastTo S2x16x16 (shapeCast S2x16x1 (norms x) shapeCasts_S2x16_S2x16x1) broadcasts_S2x16x1_S2x16x16 (ix3 b i j)
        * broadcastTo S2x16x16 (shapeCast S2x1x16 (norms x) shapeCasts_S2x16_S2x1x16) broadcasts_S2x1x16_S2x16x16 (ix3 b i j)
        + Ideal.ofBits .f32 0x322BCC77#32) = _
  rw [gram, column_spread, row_spread, norms_apply, norms_apply]
  rfl

theorem rowMaxes_apply (x : FVec Ideal S2x16x256 .f32) (b : Fin 2) (i : Fin 16) :
    rowMaxes x (ix2 b i) = rowMax (rowsOf x b) i := by
  show max (Ideal.ofBits .f32 0xFF800000#32)
      (multiReduction .maximumf [2] S2x16 (scores x) 0xFF800000#32 reduces_S2x16x16_S2x16 (.inl rfl) rfl (ix2 b i)) = _
  refine (congrArg (max (Ideal.ofBits .f32 0xFF800000#32)) (max_members (scores x) _ _ _ b i)).trans ?_
  simp only [scores_apply]
  rfl

theorem expos_apply (x : FVec Ideal S2x16x256 .f32) (b : Fin 2) (i j : Fin 16) :
    expos x (ix3 b i j) = expo (rowsOf x b) i j := by
  show Ideal.exp (scores x (ix3 b i j)
      - broadcastTo S2x16x16 (shapeCast S2x16x1 (rowMaxes x) shapeCasts_S2x16_S2x16x1) broadcasts_S2x16x1_S2x16x16 (ix3 b i j)) = _
  rw [column_spread, scores_apply, rowMaxes_apply]
  rfl

theorem weights_apply (x : FVec Ideal S2x16x256 .f32) (b : Fin 2) (i j : Fin 16) :
    weights x (ix3 b i j) = weight (rowsOf x b) i j := by
  show Ideal.div (expos x (ix3 b i j))
      (broadcastTo S2x16x16
        (shapeCast S2x16x1 (multiReduction .add [2] S2x16 (expos x) 0x00000000#32 reduces_S2x16x16_S2x16 (.inl rfl) rfl) shapeCasts_S2x16_S2x16x1)
        broadcasts_S2x16x1_S2x16x16 (ix3 b i j)) = _
  rw [column_spread]
  refine (congrArg (Ideal.div (expos x (ix3 b i j))) (sum_members (expos x) _ _ _ b i)).trans ?_
  simp only [expos_apply]
  rfl

/-- THE STORED BLOCK AT (b, i, p): member i's aggregated parameter at position p, within clique b of the block. -/
theorem payload_apply (x : FVec Ideal S2x16x256 .f32) (y : FVec Ideal S2x16x65536 .f32) (b : Fin 2) (i : Fin 16) (p : Fin 65536) :
    k0_pay1 (F := Ideal) x y (ix3 b i p) = mixAt (n := 2) x y b i p := by
  rw [payload_eq, weighted]
  simp only [weights_apply]
  rfl

end Cert.KernelIdeal.Block

end
-- ==== Proof.Tiling.lean ====
/-
  Tiling by cliques. The result at (clique, member, position) depends only on that clique's rows and that clique's
  parameters at that position. So if a two-clique block holds cliques 2q and 2q+1 of the whole arrays, the result computed
  from the block at (b, i, p) is the whole arrays' result at (2q+b, i, p).
-/
import proofs.«179218_j49168785604634_1_alg».proof.Proof.Spec

noncomputable section

namespace Cert.CliqueAttention

open Idealize.ShloMosaic Idealize.ShloMosaic.ValueIdx

/-- Clique `b` of block `q` is clique `2q + b` of the 64. -/
abbrev cliqueOf (q : Fin 32) (b : Fin 2) : Fin 64 := ⟨2 * q.val + b.val, by have := q.isLt; have := b.isLt; omega⟩

theorem mixAt_of_block
    (x : (⟨3, ![2, 16, 256]⟩ : Shape).Idx → EReal) (y : (⟨3, ![2, 16, 65536]⟩ : Shape).Idx → EReal)
    (X : (⟨3, ![64, 16, 256]⟩ : Shape).Idx → EReal) (Y : (⟨3, ![64, 16, 65536]⟩ : Shape).Idx → EReal) (q : Fin 32)
    (hx : ∀ (b : Fin 2) (i : Fin 16) (d : Fin 256), x (ix3 b i d) = X (ix3 (cliqueOf q b) i d))
    (hy : ∀ (b : Fin 2) (j : Fin 16) (p : Fin 65536), y (ix3 b j p) = Y (ix3 (cliqueOf q b) j p))
    (b : Fin 2) (i : Fin 16) (p : Fin 65536) :
    mixAt (n := 2) x y b i p = mixAt (n := 64) X Y (cliqueOf q b) i p := by
  unfold mixAt
  rw [show (fun i' d => x (ix3 b i' d)) = fun i' d => X (ix3 (cliqueOf q b) i' d) from
        funext fun i' => funext fun d => hx b i' d,
      show (fun j => y (ix3 b j p)) = fun j => Y (ix3 (cliqueOf q b) j p) from funext fun j => hy b j p]

end Cert.CliqueAttention

end
-- ==== Proof.Blocks.lean ====
/-
  From blocks to the whole array. Grid point t stages cliques 2t and 2t+1 of both inputs (the index maps send t to
  block (t, 0, 0), a block spanning every member and every coordinate), runs the body on them, and writes the result
  back as cliques 2t and 2t+1 of the output. By the tiling lemma what it writes is block t of the specification's
  whole-array result; the 32 blocks cover the 64 cliques (clique c lies in block c / 2), so after the run the output
  array is the specification's result of the two argument arrays.
-/
import proofs.«179218_j49168785604634_1_alg».proof.Proof.Gen.KernelIdeal.Value
import proofs.«179218_j49168785604634_1_alg».proof.Proof.KernelBlock
import proofs.«179218_j49168785604634_1_alg».proof.Proof.Tiling

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.CliqueAttention

variable (m : (ℓ : Loc nD τ sig) → Buf (Elt Ideal) ℓ) (ρ : Dev nD → PrngReg)

/-- The representation array and the parameter array as the region finds them. -/
abbrev reps (c : Dev nD) : FVec Ideal S64x16x256 .f32 := V m c main_arg0
abbrev params (c : Dev nD) : FVec Ideal S64x16x65536 .f32 := V m c main_arg1
/-- The two input blocks at grid point `t`. -/
abbrev repBlock (c : Dev nD) (t : Fin cfg0.N) : FVec Ideal S2x16x256 .f32 := iblk m c 0 t
abbrev paramBlock (c : Dev nD) (t : Fin cfg0.N) : FVec Ideal S2x16x65536 .f32 := iblk m c 1 t

theorem origin3 : (![0, 0, 0] : Fin 3 → Nat) = fun _ => 0 := funext fun a => by fin_cases a <;> rfl

/-- The printed index maps, decided over the 32 grid points: every window's block index at point t is (t, 0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The grid point as a block number below 32. -/
abbrev blockNo (t : Fin cfg0.N) : Fin 32 := ⟨t.val, lt_of_lt_of_eq t.isLt N_0⟩

/-- The representation block at point t holds cliques 2t and 2t+1. -/
theorem repBlock_apply (c : Dev nD) (t : Fin cfg0.N) (b : Fin 2) (i : Fin 16) (d : Fin 256) :
    repBlock m c t (ix3 b i d) = reps m c (ix3 (cliqueOf (blockNo t) b) i d) := by
  obtain ⟨e0, e1, e2, -⟩ := block_index t
  show V m c main_arg0 (((cfg0.win 0).blk t).view.emb (ix3 b i d)) = V m c main_arg0 (ix3 (cliqueOf (blockNo t) b) i d)
  refine congrArg (V m c main_arg0) (funext fun a => Fin.ext ?_)
  match a with
  | ⟨0, _⟩ => show win0_0.index t (0 : Fin 3) * 2 + 1 * b.val = 2 * t.val + b.val; omega
  | ⟨1, _⟩ => show win0_0.index t (1 : Fin 3) * 16 + 1 * i.val = i.val; omega
  | ⟨2, _⟩ => show win0_0.index t (2 : Fin 3) * 256 + 1 * d.val = d.val; omega

/-- The parameter block at point t holds cliques 2t and 2t+1. -/
theorem paramBlock_apply (c : Dev nD) (t : Fin cfg0.N) (b : Fin 2) (j : Fin 16) (p : Fin 65536) :
    paramBlock m c t (ix3 b j p) = params m c (ix3 (cliqueOf (blockNo t) b) j p) := by
  obtain ⟨-, -, -, e0, e1, e2, -⟩ := block_index t
  show V m c main_arg1 (((cfg0.win 1).blk t).view.emb (ix3 b j p)) = V m c main_arg1 (ix3 (cliqueOf (blockNo t) b) j p)
  refine congrArg (V m c main_arg1) (funext fun a => Fin.ext ?_)
  match a with
  | ⟨0, _⟩ => show win0_1.index t (0 : Fin 3) * 2 + 1 * b.val = 2 * t.val + b.val; omega
  | ⟨1, _⟩ => show win0_1.index t (1 : Fin 3) * 16 + 1 * j.val = j.val; omega
  | ⟨2, _⟩ => show win0_1.index t (2 : Fin 3) * 65536 + 1 * p.val = p.val; omega

/-- The body's stored value on the blocks of point t, at block index y, is the specification's result at clique
    2t + y₀, member y₁, position y₂ (the tiling lemma, with the two block reads). -/
theorem block_result (c : Dev nD) (t : Fin cfg0.N) (y : S2x16x65536.Idx) :
    k0_pay1 (F := Ideal) (repBlock m c t) (paramBlock m c t) y
      = result (n := 64) (reps m c) (params m c)
          (ix3 (cliqueOf (blockNo t) ⟨(y 0).val, (y 0).isLt⟩) ⟨(y 1).val, (y 1).isLt⟩ ⟨(y 2).val, (y 2).isLt⟩) := by
  obtain ⟨b, i, p, rfl⟩ : ∃ (b : Fin 2) (i : Fin 16) (p : Fin 65536), y = ix3 b i p := ⟨y 0, y 1, y 2, eq_ix3 y⟩
  rw [Cert.KernelIdeal.Block.payload_apply, result_ix3]
  exact mixAt_of_block _ _ _ _ (blockNo t) (repBlock_apply m c t) (paramBlock_apply m c t) b i p

/-- WHAT POINT t WRITES BACK is block t of the specification's result of the argument arrays. -/
theorem flushed_eq (c : Dev nD) (t : Fin cfg0.N) :
    (dats m 0 c).flushed 2 t
      = ((cfg0.win 2).blk t).view.read (Elt Ideal) (result (n := 64) (reps m c) (params m c)) := by
  rw [Cert.KernelIdeal.Value.flushed2]
  unfold out0_2
  rw [View.canon_unit_zero origin3]
  simp only [View.ld_unit_zero (S := S2x16x256) origin3, View.ld_unit_zero (S := S2x16x65536) origin3]
  funext y
  show k0_pay1 (F := Ideal) (repBlock m c t) (paramBlock m c t) y
      = result (n := 64) (reps m c) (params m c) (((cfg0.win 2).blk t).view.emb y)
  refine (block_result m c t y).trans (congrArg (result (n := 64) (reps m c) (params m c)) (funext fun a => Fin.ext ?_))
  obtain ⟨-, -, -, -, -, -, e0, e1, e2⟩ := block_index t
  match a with
  | ⟨0, _⟩ => show 2 * t.val + (y 0).val = win0_2.index t (0 : Fin 3) * 2 + 1 * (y 0).val; omega
  | ⟨1, _⟩ => show (y 1).val = win0_2.index t (1 : Fin 3) * 16 + 1 * (y 1).val; omega
  | ⟨2, _⟩ => show (y 2).val = win0_2.index t (2 : Fin 3) * 65536 + 1 * (y 2).val; omega

/-- An index of the output array is in point t's block iff each coordinate is in the block's range on its axis. -/
theorem mem_block (t : Fin cfg0.N) (i : S64x16x65536.Idx) :
    i ∈ ((cfg0.win 2).blk t).view.set ↔ ∀ a : Fin 3, win0_2.index t a * S2x16x65536.size a ≤ (i a).val
      ∧ (i a).val < win0_2.index t a * S2x16x65536.size a + S2x16x65536.size a := by
  show i ∈ ((View.whole main_v0).slice (win0_2.rect t)).set ↔ _
  rw [View.set_slice_whole, Rect.mem_set_unit]
  exact Iff.rfl

/-- The 32 blocks cover the output array: clique c lies in block c / 2. -/
theorem covered (i : S64x16x65536.Idx) :
    ∃ t : Fin cfg0.N, (cfg0.win 2).flush t = true ∧ i ∈ ((cfg0.win 2).blk t).view.set := by
  have hi0 : (i 0).val < 64 := (i 0).isLt
  have hi1 : (i 1).val < 16 := (i 1).isLt
  have hi2 : (i 2).val < 65536 := (i 2).isLt
  have hN : (i 0).val / 2 < cfg0.N := by rw [show cfg0.N = 32 from N_0]; omega
  obtain ⟨-, -, -, -, -, -, e0, e1, e2⟩ := block_index ⟨(i 0).val / 2, hN⟩
  refine ⟨⟨(i 0).val / 2, hN⟩, flush0_2 _, ?_⟩
  rw [mem_block]
  intro a
  match a with
  | ⟨0, _⟩ =>
    show win0_2.index ⟨(i 0).val / 2, hN⟩ (0 : Fin 3) * 2 ≤ (i 0).val ∧ (i 0).val < win0_2.index ⟨(i 0).val / 2, hN⟩ (0 : Fin 3) * 2 + 2
    have e0' : win0_2.index ⟨(i 0).val / 2, hN⟩ (0 : Fin 3) = (i 0).val / 2 := e0
    omega
  | ⟨1, _⟩ =>
    show win0_2.index ⟨(i 0).val / 2, hN⟩ (1 : Fin 3) * 16 ≤ (i 1).val ∧ (i 1).val < win0_2.index ⟨(i 0).val / 2, hN⟩ (1 : Fin 3) * 16 + 16
    omega
  | ⟨2, _⟩ =>
    show win0_2.index ⟨(i 0).val / 2, hN⟩ (2 : Fin 3) * 65536 ≤ (i 2).val ∧ (i 2).val < win0_2.index ⟨(i 0).val / 2, hN⟩ (2 : Fin 3) * 65536 + 65536
    omega

/-- THE OUTPUT ARRAY after the run is the specification's result of the two argument arrays. -/
theorem final (c : Dev nD) :
    (dats m 0 c).arrAt 2 cfg0.N
      = result (n := 64) (m ((c : Thread nD τ).loc main_arg0)) (m ((c : Thread nD τ).loc main_arg1)) :=
  (dats m 0 c).arrAt_eq_of_cover 2 (result (n := 64) (reps m c) (params m c)) (fun t _ => flushed_eq m c t) covered

/-- The kernel's run with its result named: every weakly fair execution terminates with the output array at the
    specification's result of the arguments, the arguments unchanged. -/
theorem run : θ_run defs (onTc (τ := τ) (main (F := Ideal))) ⟨m, fun _ => 0, ρ⟩ fun r => ∀ c : Dev nD,
      r.2.mem ((c : Thread nD τ).loc main_v0)
        = result (n := 64) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Whole

end
-- ==== Proof.RefValue.lean ====
/-
  The reference's result, read at an index of the whole 64-clique arrays.

  The reference computes the same stages as the kernel body — row norms, cosine scores, row maxima, shifted
  exponentials, softmax weights, the weights applied to the parameters — on all 64 cliques at once, with the host's
  spellings (broadcast_in_dim for the row and column spreads, stablehlo.reduce for the sums and the maximum,
  dot_general for the two contractions). Read at (c, i, ·) each stage is the clique's mathematics (Spec) of clique c's
  rows: a host sum is its zero initial value plus the sum, a host maximum the fold of max from its −∞ initial value,
  and the clique coordinate c is carried through every stage unchanged.
-/
import proofs.«179218_j49168785604634_1_alg».proof.Proof.Gen.ReferenceIdeal.Read
import proofs.«179218_j49168785604634_1_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read
open Idealize.ShloMosaic Idealize.ShloMosaic.ValueIdx Cert.CliqueAttention

/-- Clique `c`'s rows of the representation array. -/
abbrev rowsOf (x : FVec Ideal S64x16x256 .f32) (c : Fin 64) : Fin 16 → Fin 256 → EReal := fun i d => x (ix3 c i d)

/-! ## Where each stage reads its operand: the generated index functions at coordinates -/

theorem at_sq (c : Fin 64) (i : Fin 16) (k : Fin 256) : idx_main_call0_v1 (ix2 c i) k = ix3 c i k :=
  funext fun a => Fin.ext (by match a with | ⟨0, _⟩ => rfl | ⟨1, _⟩ => rfl | ⟨2, _⟩ => rfl)
theorem at_gram_l (c : Fin 64) (i j : Fin 16) (k : Fin 256) : lidx_main_v1 (ix3 c i j) k = ix3 c i k :=
  funext fun a => Fin.ext (by match a with | ⟨0, _⟩ => rfl | ⟨1, _⟩ => rfl | ⟨2, _⟩ => rfl)
theorem at_gram_r (c : Fin 64) (i j : Fin 16) (k : Fin 256) : ridx_main_v1 (ix3 c i j) k = ix3 c j k :=
  funext fun a => Fin.ext (by match a with | ⟨0, _⟩ => rfl | ⟨1, _⟩ => rfl | ⟨2, _⟩ => rfl)
theorem at_col (c : Fin 64) (i j : Fin 16) : idx_main_v2 (idx_main_v4 (ix3 c i j)) = ix2 c i :=
  funext fun a => Fin.ext (by match a with | ⟨0, _⟩ => rfl | ⟨1, _⟩ => rfl)
theorem at_row (c : Fin 64) (i j : Fin 16) : idx_main_v3 (idx_main_v5 (ix3 c i j)) = ix2 c j :=
  funext fun a => Fin.ext (by match a with | ⟨0, _⟩ => rfl | ⟨1, _⟩ => rfl)
theorem at_max_col (c : Fin 64) (i j : Fin 16) : idx_main_v13 (idx_main_v14 (ix3 c i j)) = ix2 c i :=
  funext fun a => Fin.ext (by match a with | ⟨0, _⟩ => rfl | ⟨1, _⟩ => rfl)
theorem at_exp (c : Fin 64) (i : Fin 16) (k : Fin 16) : idx_main_v17 (ix2 c i) k = ix3 c i k :=
  funext fun a => Fin.ext (by match a with | ⟨0, _⟩ => rfl | ⟨1, _⟩ => rfl | ⟨2, _⟩ => rfl)
theorem at_sum_col (c : Fin 64) (i j : Fin 16) : idx_main_v18 (idx_main_v19 (ix3 c i j)) = ix2 c i :=
  funext fun a => Fin.ext (by match a with | ⟨0, _⟩ => rfl | ⟨1, _⟩ => rfl)
theorem at_weight (c : Fin 64) (i : Fin 16) (p : Fin 65536) (k : Fin 16) : lidx_main_v21 (ix3 c i p) k = ix3 c i k :=
  funext fun a => Fin.ext (by match a with | ⟨0, _⟩ => rfl | ⟨1, _⟩ => rfl | ⟨2, _⟩ => rfl)
theorem at_param (c : Fin 64) (i : Fin 16) (p : Fin 65536) (k : Fin 16) : ridx_main_v21 (ix3 c i p) k = ix3 c k p :=
  funext fun a => Fin.ext (by match a with | ⟨0, _⟩ => rfl | ⟨1, _⟩ => rfl | ⟨2, _⟩ => rfl)

/-! ## Each stage at an index -/

/-- The norms. -/
theorem norms_apply (x : FVec Ideal S64x16x256 .f32) (c : Fin 64) (i : Fin 16) :
    val_main_v0 (F := Ideal) x (ix2 c i) = norm (rowsOf x c) i := by
  show Ideal.sqrt (val_main_call0_v1 (F := Ideal) x (ix2 c i)) = _
  rw [val_main_call0_v1_apply]
  show Ideal.sqrt (Ideal.ofBits .f32 0x00000000#32 + ∑ k : Fin 256, val_main_call0_v0 (F := Ideal) x (idx_main_call0_v1 (ix2 c i) k)) = _
  rw [Ideal.ofBits_zero_f32, zero_add]
  simp only [at_sq]
  rfl

/-- The cosine scores. -/
theorem scores_apply (x : FVec Ideal S64x16x256 .f32) (c : Fin 64) (i j : Fin 16) :
    val_main_v9 (F := Ideal) x (ix3 c i j) = score (rowsOf x c) i j := by
  show Ideal.div (val_main_v1 (F := Ideal) x (ix3 c i j))
      (val_main_v4 (F := Ideal) x (ix3 c i j) * val_main_v5 (F := Ideal) x (ix3 c i j) + val_main_v7 (F := Ideal) (ix3 c i j)) = _
  rw [val_main_v1_apply, val_main_v4_apply, val_main_v2_apply, val_main_v5_apply, val_main_v3_apply, val_main_v7_apply,
    at_col, at_row, norms_apply, norms_apply]
  simp only [at_gram_l, at_gram_r]
  rfl

/-- The row maxima: the host's reduce is the fold of max from its initial value. -/
theorem rowMaxes_apply (x : FVec Ideal S64x16x256 .f32) (c : Fin 64) (i : Fin 16) :
    val_main_v12 (F := Ideal) x (ix2 c i) = rowMax (rowsOf x c) i := by
  show max (val_main_v11 (F := Ideal) (ix2 c i)) (val_main_v10 (F := Ideal) x (ix2 c i)) = _
  rw [val_main_v11_apply]
  unfold val_main_v10
  rw [Host.reduce_eq_fold_single FloatOps.maximumf _ _ reducesTo_S64x16x16_S64x16_d2 (by decide) h_S_]
  have e : (val_main_v9 (F := Ideal) x ∘ Shape.Reduces.lift (by decide : S64x16x16.Reduces [2] S64x16) (ix2 c i))
      = fun j => score (rowsOf x c) i j := funext fun k => by
    show val_main_v9 (F := Ideal) x (Shape.Reduces.lift _ (ix2 c i) k) = _
    rw [show Shape.Reduces.lift (by decide : S64x16x16.Reduces [2] S64x16) (ix2 c i) k = ix3 c i k from
      funext fun a => Fin.ext (by match a with | ⟨0, _⟩ => rfl | ⟨1, _⟩ => rfl | ⟨2, _⟩ => rfl)]
    exact scores_apply x c i k
  rw [e]
  rfl

/-- The shifted exponentials. -/
theorem expos_apply (x : FVec Ideal S64x16x256 .f32) (c : Fin 64) (i j : Fin 16) :
    val_main_v16 (F := Ideal) x (ix3 c i j) = expo (rowsOf x c) i j := by
  show Ideal.exp (val_main_v9 (F := Ideal) x (ix3 c i j) - val_main_v14 (F := Ideal) x (ix3 c i j)) = _
  rw [val_main_v14_apply, val_main_v13_apply, at_max_col, scores_apply, rowMaxes_apply]
  rfl

/-- The softmax weights. -/
theorem weights_apply (x : FVec Ideal S64x16x256 .f32) (c : Fin 64) (i j : Fin 16) :
    val_main_v20 (F := Ideal) x (ix3 c i j) = weight (rowsOf x c) i j := by
  show Ideal.div (val_main_v16 (F := Ideal) x (ix3 c i j)) (val_main_v19 (F := Ideal) x (ix3 c i j)) = _
  rw [val_main_v19_apply, val_main_v18_apply, at_sum_col, val_main_v17_apply]
  show Ideal.div _ (Ideal.ofBits .f32 0x00000000#32 + ∑ k : Fin 16, val_main_v16 (F := Ideal) x (idx_main_v17 (ix2 c i) k)) = _
  rw [Ideal.ofBits_zero_f32, zero_add]
  simp only [at_exp, expos_apply]
  rfl

/-- THE RESULT AT (c, i, p): member i's aggregated parameter at position p, within clique c. -/
theorem result_apply (x : FVec Ideal S64x16x256 .f32) (y : FVec Ideal S64x16x65536 .f32) (c : Fin 64) (i : Fin 16) (p : Fin 65536) :
    val_main_v21 (F := Ideal) x y (ix3 c i p) = mixAt (n := 64) x y c i p := by
  rw [val_main_v21_apply]
  simp only [at_weight, at_param, weights_apply]
  rfl

/-- The reference's whole result array is the specification's. -/
theorem result_eq (x : FVec Ideal S64x16x256 .f32) (y : FVec Ideal S64x16x65536 .f32) :
    val_main_v21 (F := Ideal) x y = result (n := 64) x y := by
  funext q
  obtain ⟨c, i, p, rfl⟩ : ∃ (c : Fin 64) (i : Fin 16) (p : Fin 65536), q = ix3 c i p := ⟨q 0, q 1, q 2, eq_ix3 q⟩
  rw [result_apply, result_ix3]

end Cert.ReferenceIdeal.RefValue

end
-- ==== Proof.lean ====
/-
  Cosine-similarity attention within cliques, and the aggregation of the members' parameters by it.

  Inputs: representations x : [64 cliques, 16 members, 256] and parameters P : [64, 16, 65536]. Within a clique, the
  score of members i and j is  ⟨x_i, x_j⟩ / (‖x_i‖ ‖x_j‖ + ε);  the weights are the softmax of the scores over j (row
  maximum subtracted, exponentials divided by their sum); the result is  out[c, i, p] = Σ_j w[c, i, j] · P[c, j, p].

  The kernel does this on blocks of two cliques, one block per grid point; the reference on all 64 at once. The two
  programs apply the same operations in the same order with the same literals (ε and −∞ are the same f32 words), the
  kernel's in the vector unit's spellings, the reference's in the host's; on the extended reals these are the same
  functions (square root, exponential and quotient are one function on either side; a lane sum and a host sum are
  both the plain sum, the host's from a zero initial value; both maxima are the fold of max from −∞; both products are
  the sum over the contracted index). The clique axis is a batch axis of both products and is kept by every
  reduction, so the value at clique c depends on clique c alone and the two-clique tiling changes nothing. No
  algebraic law is needed beyond that, so the finiteness of the inputs is never used.

  Spec          the mathematics of one clique, and the whole-array result as one function of the argument arrays;
  BlockOps      the kernel body's non-pointwise block operations read at an index;
  KernelBlock   the body's stored value at (b, i, p) is the specification's, of the block's clique b;
  Tiling        clique b of block q is clique 2q + b of the whole;
  Blocks        point t writes back block t of the specification's result, the blocks cover the array, so the kernel's
                output array is the specification's result;
  RefValue      the reference's result array is the specification's result.
  The frames of the two kernel programs are the generated ones; the reference's frame is its generated run with the
  result dropped; the idealization rewrote nothing, so there is nothing to preserve.
-/
import proofs.«179218_j49168785604634_1_alg».proof.Defs
import proofs.«179218_j49168785604634_1_alg».proof.Proof.Gen.Kernel
import proofs.«179218_j49168785604634_1_alg».proof.Proof.Gen.Kernel.Skeleton
import proofs.«179218_j49168785604634_1_alg».proof.Proof.Gen.Kernel.Launch
import proofs.«179218_j49168785604634_1_alg».proof.Proof.Gen.Kernel.Points
import proofs.«179218_j49168785604634_1_alg».proof.Proof.Gen.Kernel.Frame
import proofs.«179218_j49168785604634_1_alg».proof.Proof.Gen.KernelIdeal
import proofs.«179218_j49168785604634_1_alg».proof.Proof.Gen.KernelIdeal.Skeleton
import proofs.«179218_j49168785604634_1_alg».proof.Proof.Gen.KernelIdeal.Launch
import proofs.«179218_j49168785604634_1_alg».proof.Proof.Gen.KernelIdeal.Points
import proofs.«179218_j49168785604634_1_alg».proof.Proof.Gen.KernelIdeal.Frame
import proofs.«179218_j49168785604634_1_alg».proof.Proof.Gen.ReferenceIdeal
import proofs.«179218_j49168785604634_1_alg».proof.Proof.Gen.Pre_finite_inputs
import proofs.«179218_j49168785604634_1_alg».proof.Proof.Gen.KernelIdeal.Value
import proofs.«179218_j49168785604634_1_alg».proof.Proof.Gen.ReferenceIdeal.Run
import proofs.«179218_j49168785604634_1_alg».proof.Proof.Gen.ReferenceIdeal.Read
import proofs.«179218_j49168785604634_1_alg».proof.Proof.Blocks
import proofs.«179218_j49168785604634_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments, both programs end with the result array at the specification's
    whole-array function of those arguments: the kernel by its blocks, the reference stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
